-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x512 .f32) (main_arg1 : IVec S262144 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 512#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x512 : Shape := ⟨2, ![262144, 512]⟩
abbrev S262144 : Shape := ⟨1, ![262144]⟩
abbrev S262144x1 : Shape := ⟨2, ![262144, 1]⟩
abbrev S16x128 : Shape := ⟨2, ![16, 128]⟩
abbrev S1024x512 : Shape := ⟨2, ![1024, 512]⟩
abbrev S1024x1 : Shape := ⟨2, ![1024, 1]⟩
abbrev S8x128 : Shape := ⟨2, ![8, 128]⟩
abbrev S1x1 : Shape := ⟨2, ![1, 1]⟩
abbrev S1024 : Shape := ⟨1, ![1024]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S262144x1, .i32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v32 : BitVec 1 := Scalar.cmpi .eq arg1 c127_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S262144_S262144x1 : S262144.ShapeCasts S262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x512_d1_w32 : S1024x512.Iotas .tc 32 [1]
  broadcasts_S1024x1_S1024x512 : S1024x1.Broadcasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S262144x512.size a
  hwx0_0 : ∀ i : grid0.Coords, EltTy.bits .f32 = 32 ∨ (Rect.block (s := S262144x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x512 : Shape := ⟨2, ![262144, 512]⟩
abbrev S262144 : Shape := ⟨1, ![262144]⟩
abbrev S262144x1 : Shape := ⟨2, ![262144, 1]⟩
abbrev S_ : Shape := ⟨0, ![]⟩
abbrev S262144x1x1 : Shape := ⟨3, ![262144, 1, 1]⟩
abbrev S1 : Shape := ⟨1, ![1]⟩
abbrev S1x1x1 : Shape := ⟨3, ![1, 1, 1]⟩
abbrev S512 : Shape := ⟨1, ![512]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S262144x1, .i32⟩
  | .hbm, ⟨3, _⟩ => ⟨S_, .i32⟩
  | .hbm, ⟨4, _⟩ => ⟨S262144x1, .i32⟩
  | .hbm, ⟨5, _⟩ => ⟨S262144x1, .i1⟩
  | .hbm, ⟨6, _⟩ => ⟨S_, .i32⟩
  | .hbm, ⟨7, _⟩ => ⟨S262144x1, .i32⟩
  | .hbm, ⟨8, _⟩ => ⟨S262144x1, .i32⟩
  | .hbm, ⟨9, _⟩ => ⟨S262144x1, .i32⟩
  | .hbm, ⟨10, _⟩ => ⟨S262144x1x1, .i32⟩
  | .hbm, ⟨11, _⟩ => ⟨S1, .i32⟩
  | .hbm, ⟨12, _⟩ => ⟨S_, .i32⟩
  | .hbm, ⟨13, _⟩ => ⟨S262144x1x1, .i32⟩
  | .hbm, ⟨14, _⟩ => ⟨S262144x1x1, .i1⟩
  | .hbm, ⟨15, _⟩ => ⟨S1x1x1, .i32⟩
  | .hbm, ⟨16, _⟩ => ⟨S262144x1x1, .i32⟩
  | .hbm, ⟨17, _⟩ => ⟨S262144x1x1, .i1⟩
  | .hbm, ⟨18, _⟩ => ⟨S262144x1x1, .i1⟩
  | .hbm, ⟨19, _⟩ => ⟨S_, .i1⟩
  | .hbm, ⟨20, _⟩ => ⟨S262144x1, .i1⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S262144x512, .f32⟩
  | .hbm, ⟨26, _⟩ => ⟨S262144x512, .f32⟩
  | .hbm, ⟨27, _⟩ => ⟨S_, .f32⟩
  | .hbm, ⟨28, _⟩ => ⟨S262144x512, .f32⟩
  | .hbm, ⟨29, _⟩ => ⟨S262144x512, .f32⟩
  | .hbm, ⟨30, _⟩ => ⟨S512, .i32⟩
  | .hbm, ⟨31, _⟩ => ⟨S1x512, .i32⟩
  | .hbm, ⟨32, _⟩ => ⟨S262144x1, .i32⟩
  | .hbm, ⟨33, _⟩ => ⟨S262144x512, .i32⟩
  | .hbm, ⟨34, _⟩ => ⟨S262144x512, .i32⟩
  | .hbm, ⟨35, _⟩ => ⟨S262144x512, .i1⟩
  | .hbm, ⟨36, _⟩ => ⟨S262144x512, .f32⟩
  | .hbm, ⟨37, _⟩ => ⟨S262144x512, .f32⟩
  | .hbm, ⟨38, _⟩ => ⟨S_, .f32⟩
  | .hbm, ⟨39, _⟩ => ⟨S_, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x512_0_1 : S262144x1.BroadcastsInDim S262144x512 (![0, 1] : Fin 2 → Fin S262144x512.rank)
  bcast_S_S262144x512 : S_.BroadcastsInDim S262144x512 (![] : Fin 0 → Fin S262144x512.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  reducesTo_S262144x512_S_d0_1 : S262144x512.ReducesTo [0, 1] S_
  gather_S262144x512_S262144x1x1_S262144x1_n_1_0_0_1_2_11_wf : GatherDims.WF S262144x512 S262144x1x1 S262144x1 [] [1] [0] [1] [0] 2 ![1, 1]

variable [Facts₀]

def gather_S262144x512_S262144x1x1_S262144x1_n_1_0_0_1_2_11 : GatherDims S262144x512 S262144x1x1 S262144x1 where
  offsetDims := []
  collapsedSliceDims := [1]
  operandBatchingDims := [0]
  startIndicesBatchingDims := [0]
  startIndexMap := [1]
  indexVectorDim := 2
  sliceSizes := ![1, 1]
  wf := gather_S262144x512_S262144x1x1_S262144x1_n_1_0_0_1_2_11_wf

class Facts : Prop extends Facts₀ where

variable [Facts]
-- ==== Proof.KernelPieces.lean ====
/-
  What one run of the kernel's body leaves behind, case by case, as values.

  The body keeps a one-entry running total.  At the first block of a half it first resets the total to zero; at every
  block it replaces the total by the total plus the block's contribution; at the last block of a half it also fills the
  half's 8 x 128 output tile with the total.  So the total after the body is the accumulating step applied to zero
  (first block) or to the total the block before left (later blocks), and the output tile of the last block is the
  broadcast of that new total.
-/
import proofs.«430004_j69518340653473_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Idealize.ShloMosaic.Pipeline (Dat)
open Cert.KernelIdeal Cert.KernelIdeal.Gen

variable {F : FTy → Type} [FloatOps F]

theorem off_zero : (![0, 0] : Fin 2 → Nat) = fun _ => 0 := funext fun a => by fin_cases a <;> rfl

/-- First block of a half: the total is reset, read back, and stepped: the step applied to the zero entry. -/
theorem total_first (c : Dev nD) (i : grid0.Coords) (arg2 : Memref sig .tc .vmem S1024x512 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : cond0_0 i) (hc1 : ¬cond0_1 i)
    (x0 : Vec F S1024x512 .f32) (x1 : Vec F S1024x1 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) off_zero, View.readCov_unit_zero (S := S1x1) _ off_zero]
  simp only [View.readAt_eq_ld, harg2.read_unread, harg3.read_unread, View.ld_unit_zero (S := S1024x512) off_zero,
    View.ld_unit_zero (S := S1024x1) off_zero]

/-- A middle block: the total the block before left, stepped. -/
theorem total_middle (c : Dev nD) (i : grid0.Coords) (arg2 : Memref sig .tc .vmem S1024x512 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : ¬cond0_1 i)
    (x0 : Vec F S1024x512 .f32) (x1 : Vec F S1024x1 .i32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero off_zero]
  simp only [View.readAt_eq_ld, harg2.read_unread, harg3.read_unread, harg5.read_unread, View.ld_unit_zero (S := S1024x512) off_zero,
    View.ld_unit_zero (S := S1024x1) off_zero, View.ld_unit_zero (S := S1x1) off_zero]

/-- The last block of a half: the total is stepped as at a middle block, -/
theorem total_last (c : Dev nD) (i : grid0.Coords) (arg2 : Memref sig .tc .vmem S1024x512 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S1024x512 .f32) (x1 : Vec F S1024x1 .i32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero off_zero]
  simp only [View.readAt_eq_ld, harg2.read_unread, harg3.read_unread, harg5.read_unread, View.ld_unit_zero (S := S1024x512) off_zero,
    View.ld_unit_zero (S := S1024x1) off_zero, View.ld_unit_zero (S := S1x1) off_zero]

/-- and the half's output tile is filled with the new total. -/
theorem tile_last (c : Dev nD) (i : grid0.Coords) (arg2 : Memref sig .tc .vmem S1024x512 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S1024x512 .f32) (x1 : Vec F S1024x1 .i32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero off_zero]
  simp only [View.readAt_eq_ld, harg2.read_unread, harg3.read_unread, harg5.read_unread, View.ld_unit_zero (S := S1024x512) off_zero,
    View.ld_unit_zero (S := S1024x1) off_zero, View.ld_unit_zero (S := S1x1) off_zero, View.readCov_unit_zero (S := S1x1) _ off_zero]

end Cert.KernelIdeal.Pieces

end
-- ==== Proof.Spec.lean ====
/-
  The mathematics of the ordinal loss, over the extended reals, with no program in sight.

  One row holds 512 scores `x i` and a label `t` below 512.  Its loss is the sum, over the classes `i` below the
  label, of the positive part of `x i - x t`.  Two spellings of that number are met: one that finds `x t` by summing
  the row against the one-hot mask `i - t = 0` and keeps the classes with `i - t < 0` (both tests on 32-bit words),
  and one that is handed `x t` and multiplies each positive part by the indicator of `i < t`.  For a label in range
  both are the row's loss: the word difference `i - t` of two numbers below 512 does not wrap past the sign bit, a sum
  against a one-hot mask is the selected entry, and a product with the indicator keeps or drops its other factor.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.OrdinalSpec

open Idealize.ShloMosaic

/-- The loss of one row: each class below the label contributes the positive part of its margin over the label's score. -/
def rowLoss (x : Fin 512 → EReal) (t : Fin 512) : EReal :=
  ∑ i : Fin 512, if i.val < t.val then max (x i - x t) 0 else 0

/-! ## Words: the difference of two small numbers -/

/-- The word `i - w` as a number: the difference when `w` is not above `i`, else that far below `2 ^ 32`. -/
theorem diff_toNat (i : ℕ) (hi : i < 512) (w : BitVec 32) (hw : w.toNat < 512) :
    (BitVec.ofNat 32 i - w).toNat = if w.toNat ≤ i then i - w.toNat else 4294967296 - (w.toNat - i) := by
  rw [BitVec.toNat_sub, BitVec.toNat_ofNat]
  have h2 : (2 : ℕ) ^ 32 = 4294967296 := by norm_num
  simp only [h2]
  split <;> omega

/-- The word `i - w` is zero exactly when `i` is the number `w` holds. -/
theorem diff_eq_zero_iff (i : ℕ) (hi : i < 512) (w : BitVec 32) (hw : w.toNat < 512) :
    IntOp.cmpi .eq (IntOp.subi (BitVec.ofNat 32 i) w) 0#32 = 1#1 ↔ i = w.toNat := by
  rw [StableHlo.Predicate.cmpi_eq_iff]
  unfold IntOp.subi
  rw [← BitVec.toNat_inj, diff_toNat i hi w hw]
  show _ = 0 ↔ _
  split <;> omega

/-- The word `i - w` is negative exactly when `i` is below the number `w` holds: neither is near the sign bit. -/
theorem diff_slt_zero_iff (i : ℕ) (hi : i < 512) (w : BitVec 32) (hw : w.toNat < 512) :
    IntOp.cmpi .slt (IntOp.subi (BitVec.ofNat 32 i) w) 0#32 = 1#1 ↔ i < w.toNat := by
  unfold IntOp.cmpi IntOp.subi
  rw [StableHlo.Predicate.ofBool_eq_one_iff]
  simp only [BitVec.slt, decide_eq_true_eq, BitVec.toInt_eq_toNat_cond, BitVec.toNat_sub, BitVec.toNat_ofNat,
    BitVec.toNat_ofNat]
  have h2 : (2 : ℕ) ^ 32 = 4294967296 := by norm_num
  simp only [h2]
  split <;> split <;> omega

/-- A class number is below the label, as signed words, exactly when it is as numbers. -/
theorem slt_label_iff (i : ℕ) (hi : i < 512) (w : BitVec 32) (hw : w.toNat < 512) :
    IntOp.cmpi .slt (BitVec.ofNat 32 i) w = 1#1 ↔ i < w.toNat := by
  rw [StableHlo.Predicate.slt_iff_toNat (by rw [BitVec.toNat_ofNat]; omega) (by omega), BitVec.toNat_ofNat]
  omega

/-- A label below 512 is not negative as a signed word, -/
theorem small_not_neg (w : BitVec 32) (hw : w.toNat < 512) : IntOp.cmpi .slt w 0#32 = 0#1 :=
  ValueIdx.eq_zero_of_ne_one fun h => by
    have := (StableHlo.Predicate.slt_iff_toNat (a := w) (b := 0#32) (by omega) (by decide)).mp h
    simp at this

/-- is at least zero, -/
theorem small_sge_zero (w : BitVec 32) (hw : w.toNat < 512) : IntOp.cmpi .sge w 0#32 = 1#1 :=
  (StableHlo.Predicate.sge_iff_toNat (a := w) (b := 0#32) (by omega) (by decide)).mpr (by simp)

/-- and is at most 511. -/
theorem small_sle_last (w : BitVec 32) (hw : w.toNat < 512) : IntOp.cmpi .sle w 511#32 = 1#1 :=
  (StableHlo.Predicate.sle_iff_toNat (a := w) (b := 511#32) (by omega) (by decide)).mpr (by
    show w.toNat ≤ (511#32 : BitVec 32).toNat
    simp; omega)

/-- Read as a signed number and then as a natural number it is the number it holds. -/
theorem small_toInt_toNat (w : BitVec 32) (hw : w.toNat < 512) : w.toInt.toNat = w.toNat := by
  rw [StableHlo.Predicate.toInt_eq_toNat_of_lt (by omega)]
  simp

/-! ## The two spellings of a row's loss -/

/-- The first spelling: the label's score by a masked sum, the classes below it by the sign of `i - t`. -/
def rowMasked (x : Fin 512 → EReal) (w : BitVec 32) : EReal :=
  ∑ i : Fin 512, max (Scalar.select (IntOp.cmpi .slt (IntOp.subi (BitVec.ofNat 32 i.val) w) 0#32)
    (x i - ∑ i' : Fin 512, Scalar.select (IntOp.cmpi .eq (IntOp.subi (BitVec.ofNat 32 i'.val) w) 0#32) (x i') (0 : EReal))
    (0 : EReal)) (0 : EReal)

/-- A sum against the one-hot mask of the label is the label's score. -/
theorem masked_score (x : Fin 512 → EReal) (w : BitVec 32) (hw : w.toNat < 512) :
    (∑ i' : Fin 512, Scalar.select (IntOp.cmpi .eq (IntOp.subi (BitVec.ofNat 32 i'.val) w) 0#32) (x i') (0 : EReal))
      = x ⟨w.toNat, hw⟩ := by
  rw [Finset.sum_eq_single (⟨w.toNat, hw⟩ : Fin 512)]
  · rw [(diff_eq_zero_iff _ hw w hw).mpr rfl, ValueIdx.select_one]
  · intro b _ hb
    rw [ValueIdx.eq_zero_of_ne_one (fun h => hb (Fin.ext ((diff_eq_zero_iff _ b.isLt w hw).mp h))), ValueIdx.select_zero]
  · intro h; exact absurd (Finset.mem_univ _) h

theorem rowMasked_eq (x : Fin 512 → EReal) (w : BitVec 32) (hw : w.toNat < 512) :
    rowMasked x w = rowLoss x ⟨w.toNat, hw⟩ := by
  unfold rowMasked rowLoss
  rw [masked_score x w hw]
  refine Finset.sum_congr rfl fun i _ => ?_
  by_cases h : i.val < w.toNat
  · rw [(diff_slt_zero_iff _ i.isLt w hw).mpr h, ValueIdx.select_one, if_pos h]
  · rw [ValueIdx.eq_zero_of_ne_one (fun h' => h ((diff_slt_zero_iff _ i.isLt w hw).mp h')), ValueIdx.select_zero,
      if_neg h, max_self]

/-- The second spelling: handed the label's score, each positive part times the indicator of `i < t`. -/
def rowIndicator (x : Fin 512 → EReal) (w : BitVec 32) (s : EReal) : EReal :=
  ∑ i : Fin 512, max (x i - s) 0 * (((IntOp.cmpi .slt (BitVec.ofNat 32 i.val) w).toNat : ℝ) : EReal)

theorem rowIndicator_eq (x : Fin 512 → EReal) (w : BitVec 32) (hw : w.toNat < 512) :
    rowIndicator x w (x ⟨w.toNat, hw⟩) = rowLoss x ⟨w.toNat, hw⟩ := by
  unfold rowIndicator rowLoss
  refine Finset.sum_congr rfl fun i _ => ?_
  by_cases h : i.val < w.toNat
  · rw [(slt_label_iff _ i.isLt w hw).mpr h, if_pos h]
    simp
  · have : IntOp.cmpi .slt (BitVec.ofNat 32 i.val) w = 0#1 :=
      ValueIdx.eq_zero_of_ne_one (fun h' => h ((slt_label_iff _ i.isLt w hw).mp h'))
    rw [this, if_neg h]
    simp

/-! ## Rows in blocks of 1024 -/

/-- Row `r` of block `b`. -/
def rowOf (b : Fin 256) (r : Fin 1024) : Fin 262144 := ⟨b.val * 1024 + r.val, by have := b.isLt; have := r.isLt; omega⟩

/-- A sum over all rows is the sum over the 256 blocks of the sums over each block's 1024 rows. -/
theorem sum_rows (f : Fin 262144 → EReal) : ∑ n : Fin 262144, f n = ∑ b : Fin 256, ∑ r : Fin 1024, f (rowOf b r) := by
  rw [← Fintype.sum_prod_type']
  refine (Fintype.sum_equiv (finProdFinEquiv (m := 256) (n := 1024)) _ _ fun p => ?_).symm
  congr 1
  apply Fin.ext
  show p.1.val * 1024 + p.2.val = p.2.val + 1024 * p.1.val
  omega

/-- The sum over the blocks is the first 128 blocks' plus the last 128 blocks'. -/
theorem sum_blocks (g : ℕ → EReal) :
    ∑ b : Fin 256, g b.val = (∑ s ∈ Finset.range 128, g (0 + s)) + ∑ s ∈ Finset.range 128, g (128 + s) := by
  rw [Fin.sum_univ_eq_sum_range g 256, show (256 : ℕ) = 128 + 128 from rfl, Finset.sum_range_add]
  simp only [zero_add]

end Cert.OrdinalSpec

end
-- ==== Proof.KernelBlock.lean ====
/-
  One block's step of the running total, read as a number.

  A block is 1024 rows of 512 scores with 1024 labels.  The step adds to the running total the sum over the block's rows
  of each row's masked loss (`OrdinalSpec.rowMasked`): per row the label's score is the row summed against the one-hot
  mask `i - t = 0`, the margins `x i - x t` are kept where `i - t < 0` and zeroed elsewhere, their positive parts are
  summed along the row, and the row sums are summed down the block.  The tile written at the end of a half holds the total
  in every entry.
-/
import proofs.«430004_j69518340653473_2_alg».proof.Proof.Gen.KernelIdeal.Skeleton
import proofs.«430004_j69518340653473_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx
open Cert.KernelIdeal Cert.KernelIdeal.Gen Cert.OrdinalSpec

/-! ## Layout: a column, a spread column, a spread entry, and the index a one-axis sum inserts -/

section Layout
variable {α : Type}

/-- A length-1024 vector viewed as a 1024 x 1 column reads, at row `r`, its entry `r`. -/
theorem column_cast (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    omega)

/-- A 1024 x 1 column spread over 512 classes reads, at `(r, i)`, its entry of row `r`. -/
theorem column_spread (v : S1024x1.Idx → α) (h : S1024x1.Broadcasts S1024x512) (r : Fin 1024) (i : Fin 512) :
    broadcastTo S1024x512 v h (ix2 r i) = v (ix2 r (0 : Fin 1)) :=
  broadcastTo_apply v h _ _ (fun a => match a with
    | ⟨0, _⟩ => by show r.val = if (1024 : Nat) = 1 then 0 else r.val; rw [if_neg (by decide)]
    | ⟨1, _⟩ => by show 0 = if (1 : Nat) = 1 then 0 else i.val; rw [if_pos rfl])

/-- A single entry spread over an 8 x 128 tile is that entry everywhere. -/
theorem tile_spread (v : S1x1.Idx → α) (h : S1x1.Broadcasts S8x128) (j : S8x128.Idx) :
    broadcastTo S8x128 v h j = v (ix2 (0 : Fin 1) (0 : Fin 1)) :=
  broadcastTo_apply v h _ _ (fun a => match a with
    | ⟨0, _⟩ => by show 0 = if (1 : Nat) = 1 then 0 else (j 0).val; rw [if_pos rfl]
    | ⟨1, _⟩ => by show 0 = if (1 : Nat) = 1 then 0 else (j 1).val; rw [if_pos rfl])

end Layout

/-- Summing a 1024 x 512 array along its classes inserts the class at the second place. -/
theorem lift_class (h : S1024x512.Reduces [1] S1024) (r : Fin 1024) (i : Fin (S1024x512.size 1)) :
    h.lift (ix1 r) i = ix2 r (i : Fin 512) := by
  funext c
  apply Fin.ext
  show h.liftVal (ix1 r) i.val c = _
  unfold Shape.Reduces.liftVal
  match c with
  | ⟨0, _⟩ => simp
  | ⟨1, _⟩ => simp

/-- Summing a 1024 x 1 column down its rows inserts the row at the first place. -/
theorem lift_row (h : S1024x1.Reduces [0] S1) (u : Fin 1) (r : Fin (S1024x1.size 0)) :
    h.lift (ix1 u) r = ix2 (r : Fin 1024) u := by
  funext c
  apply Fin.ext
  show h.liftVal (ix1 u) r.val c = _
  unfold Shape.Reduces.liftVal
  match c with
  | ⟨0, _⟩ => simp
  | ⟨1, _⟩ => simp

/-- The class counter along a row reads the class number. -/
theorem class_iota (h : S1024x512.Iotas .tc 32 [1]) (r : Fin 1024) (i : Fin 512) :
    iota .tc S1024x512 32 [1] h (ix2 r i) = BitVec.ofNat 32 i.val :=
  iota_single_apply .tc S1024x512 32 1 h (ix2 r i)

/-- A sum along the classes, at row `r`, is the sum of the row's 512 entries. -/
theorem sum_classes (src : FVec Ideal S1024x512 .f32) (h : S1024x512.Reduces [1] S1024) (hφ : FKind.Formats .f32)
    (hacc : (0#32 : BitVec 32) = 0#32) (r : Fin 1024) :
    multiReduction .add [1] S1024 src 0#32 h hφ hacc (ix1 r) = ∑ i : Fin 512, src (ix2 r i) := by
  refine (Ideal.multiReduction_add_single src 0#32 h hφ hacc (ix1 r)).trans ?_
  exact Finset.sum_congr rfl fun i _ => congrArg src (lift_class h r i)

/-- A sum down a column is the sum of its 1024 entries. -/
theorem sum_column (src : FVec Ideal S1024x1 .f32) (h : S1024x1.Reduces [0] S1) (hφ : FKind.Formats .f32)
    (hacc : (0#32 : BitVec 32) = 0#32) (u : Fin 1) :
    multiReduction .add [0] S1 src 0#32 h hφ hacc (ix1 u) = ∑ r : Fin 1024, src (ix2 r u) := by
  refine (Ideal.multiReduction_add_single src 0#32 h hφ hacc (ix1 u)).trans ?_
  exact Finset.sum_congr rfl fun r _ => congrArg src (lift_row h u r)

/-! ## The step -/

/-- The step at the ideal values: the total plus the block's rows' masked losses. -/
theorem step_apply (x : Vec Ideal S1024x512 .f32) (tg : Vec Ideal S1024x1 .i32) (acc : Vec Ideal S1x1 .f32) (u v : Fin 1) :
    k0_pay2 (F := Ideal) x tg acc (ix2 u v)
      = acc (ix2 u v) + ∑ r : Fin 1024, rowMasked (fun i => x (ix2 r i)) (tg (ix2 r (0 : Fin 1))) := by
  unfold k0_pay2
  dsimp only
  rw [shapeCast_self, addf_apply]
  congr 1
  rw [shapeCast_a_1a_apply, sum_column]
  refine Finset.sum_congr rfl fun r _ => ?_
  rw [column_cast, sum_classes]
  unfold rowMasked
  refine Finset.sum_congr rfl fun i _ => ?_
  simp only [maximumf, select, cmpi, subi, subf, broadcast, column_spread, column_cast, shapeCast_self,
    Ideal.maximumf_def, Ideal.subf_def, Ideal.ofBits_def, Ideal.ofBits_zero_f32]
  rw [class_iota, sum_classes]
  have counter : ∀ i' : Fin 512, iota .tc S1024x512 32 [1] Facts₀.iota_S1024x512_d1_w32 (ix2 r i') = BitVec.ofNat 32 i'.val :=
    fun i' => class_iota _ r i'
  simp only [select, cmpi, subi, broadcast, column_spread, counter]

/-- The tile written at the end of a half holds the total in every entry. -/
theorem tile_apply {F : FTy → Type} [FloatOps F] (v : Vec F S1x1 .f32) (j : S8x128.Idx) :
    k0_pay3 (F := F) v j = v (ix2 (0 : Fin 1) (0 : Fin 1)) := by
  unfold k0_pay3
  rw [tile_spread, shapeCast_self]

/-- The entry the reset stores is zero. -/
theorem zero_apply (j : S1x1.Idx) : k0_pay1 (F := Ideal) j = 0 := by
  unfold k0_pay1
  rw [shapeCast_self]
  exact Ideal.ofBits_zero_f32

end Cert.KernelIdeal.Block

end
-- ==== Proof.KernelAcc.lean ====
/-
  The running total over the grid.

  The 256 grid points are the 256 blocks of 1024 rows, in order; points 0..127 are the first half, 128..255 the second.
  The total is reset at the first point of a half and stepped at every point, so after point `128 q + j` it is the fold
  of the step over the points `128 q .. 128 q + j` from zero; read at the ideal values, where the step adds the block's
  loss, it is zero plus the sum of the losses of those blocks.
-/
import proofs.«430004_j69518340653473_2_alg».proof.Proof.KernelPieces
import proofs.«430004_j69518340653473_2_alg».proof.Proof.KernelBlock

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.Pieces Cert.KernelIdeal.Block Cert.OrdinalSpec

section AnyValues

variable {F : FTy → Type} [FloatOps F]
variable (m : (ℓ : Loc nD τ sig) → Buf (Elt F) ℓ)

/-- The scores of block `t`, -/
abbrev xblk (c : Dev nD) (t : Fin cfg0.N) : Vec F S1024x512 .f32 := iblk m c 0 t
/-- and its labels. -/
abbrev tblk (c : Dev nD) (t : Fin cfg0.N) : Vec F S1024x1 .i32 := iblk m c 1 t

/-- The total after a half's first point: the step from the zero entry. -/
def resetStep (c : Dev nD) : (n : ℕ) → n < cfg0.N → Vec F S1x1 .f32 :=
  fun n h => k0_pay2 (xblk m c ⟨n, h⟩) (tblk m c ⟨n, h⟩) (k0_pay1 (F := F))

/-- The total after any other point: the step from what the point before left. -/
def accStep (c : Dev nD) : (n : ℕ) → n < cfg0.N → Vec F S1x1 .f32 → Vec F S1x1 .f32 :=
  fun n h prev => k0_pay2 (xblk m c ⟨n, h⟩) (tblk m c ⟨n, h⟩) prev

theorem total_reset (c : Dev nD) (n : ℕ) (h : n < cfg0.N) (h0 : n % 128 = 0) :
    (outsAt0 m c n h).2 = resetStep m c n h := by
  have hN : cfg0.N = 256 := N_0
  have h1 : ¬(⟨n, h⟩ : Fin cfg0.N).val % 128 = 127 := by dsimp only; omega
  rw [outsAt0_A m c ⟨n, h⟩ h0 h1]
  dsimp only
  exact total_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    scM0_0 (Memref.isWhole_whole _) ((hcond0_0 ⟨n, h⟩).mpr h0) (fun h' => h1 ((hcond0_1 ⟨n, h⟩).mp h')) (iblk m c 0 ⟨n, h⟩) (iblk m c 1 ⟨n, h⟩)

theorem total_step (c : Dev nD) (n : ℕ) (h : n + 1 < cfg0.N) (h0 : ¬(n + 1) % 128 = 0) :
    (outsAt0 m c (n + 1) h).2 = accStep m c (n + 1) h (outsAt0 m c n (Nat.lt_of_succ_lt h)).2 := by
  by_cases h1 : (n + 1) % 128 = 127
  · rw [outsAt0_C m c ⟨n + 1, h⟩ h0 h1]
    dsimp only
    exact total_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      scM0_0 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩)
      (outsAt0 m c n (Nat.lt_of_succ_lt h)).2
  · rw [outsAt0_B m c ⟨n + 1, h⟩ h0 h1]
    dsimp only
    exact total_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      scM0_0 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩)
      (outsAt0 m c n (Nat.lt_of_succ_lt h)).2

/-- The total after point `t` is the fold of the step over its half's points up to `t`. -/
theorem total_fold (c : Dev nD) (t : ℕ) (ht : t < cfg0.N) (h' : 128 * (t / 128) + t % 128 < cfg0.N) :
    (outsAt0 m c t ht).2 = Pipeline.accAt (resetStep m c) (accStep m c) (128 * (t / 128)) (t % 128) h' :=
  Pipeline.eq_accAt_of_mod (fun n h => (outsAt0 m c n h).2) 128 (resetStep m c) (accStep m c) (total_reset m c) (total_step m c)
    (by decide) t ht h'

/-- The tile the last point of a half leaves: the total after that point, in every entry. -/
theorem tile_at (c : Dev nD) (t : Fin cfg0.N) (h1 : t.val % 128 = 127) (j : S8x128.Idx) :
    (outsAt0 m c t.val t.isLt).1 j = (outsAt0 m c t.val t.isLt).2 (ix2 (0 : Fin 1) (0 : Fin 1)) := by
  have h0 : ¬t.val % 128 = 0 := by omega
  have hN : cfg0.N = 256 := N_0
  have hpos : 0 < t.val := by omega
  obtain ⟨n, hn⟩ : ∃ n, t.val = n + 1 := ⟨t.val - 1, by omega⟩
  rw [outsAt0_C m c t h0 h1]
  dsimp only
  rw [tile_last, total_last, tile_apply]

end AnyValues

/-! ## At the ideal values -/

variable (m : (ℓ : Loc nD τ sig) → Buf (Elt Ideal) ℓ)

/-- The loss of block `n`: the sum of its rows' masked losses (zero past the grid, where nothing is read). -/
def blockLoss (c : Dev nD) (n : ℕ) : EReal :=
  if h : n < cfg0.N then ∑ r : Fin 1024, rowMasked (fun i => xblk m c ⟨n, h⟩ (ix2 r i)) (tblk m c ⟨n, h⟩ (ix2 r (0 : Fin 1))) else 0

/-- The fold over the points `128 q .. 128 q + j` is zero plus the sum of those blocks' losses. -/
theorem fold_sum (c : Dev nD) (q j : ℕ) (hj : j ≤ 127) (h : 128 * q + j < cfg0.N) (i : S1x1.Idx) :
    Pipeline.accAt (resetStep m c) (accStep m c) (128 * q) j h i
      = (0 : EReal) + ∑ s ∈ Finset.range (j + 1), blockLoss m c (128 * q + s) :=
  Pipeline.accAt_add_apply (β := EReal) (resetStep m c) (accStep m c) (fun _ => (0 : EReal)) (fun n _ => blockLoss m c n) (128 * q) 127
    (fun hb i => by
      obtain ⟨u, v, rfl⟩ : ∃ (u v : Fin 1), i = ix2 u v := ⟨i 0, i 1, eq_ix2 i⟩
      unfold resetStep blockLoss
      rw [step_apply, zero_apply, dif_pos hb])
    (fun n hn acc i _ _ => by
      obtain ⟨u, v, rfl⟩ : ∃ (u v : Fin 1), i = ix2 u v := ⟨i 0, i 1, eq_ix2 i⟩
      unfold accStep blockLoss
      rw [step_apply, dif_pos hn])
    j hj h i

end Cert.KernelIdeal.Acc

end
-- ==== Proof.KernelValue.lean ====
/-
  The kernel's result.

  The output array has two 8 x 128 tiles, one per half of the rows, stacked: rows 0..7 and rows 8..15.  Tile `q` is
  written back once, after the last point of half `q` (point `128 q + 127`), and holds in every entry the running total
  after that point.  The lines after the kernel read entries (0, 0) and (8, 0) and add them: the result is the first
  half's total plus the second half's.
-/
import proofs.«430004_j69518340653473_2_alg».proof.Proof.KernelAcc
import Idealize.ShloMosaic.Lib.StableHlo.Run
import Idealize.ShloMosaic.Lib.Tactic

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.KernelIdeal.Block

variable {F : FTy → Type} [FloatOps F]
variable (m : (ℓ : Loc nD τ sig) → Buf (Elt F) ℓ) (ρ : Dev nD → PrngReg)

/-- The running total after point `n`, as one number (past the grid, where it is never read, the reset value). -/
def totalAt (c : Dev nD) (n : ℕ) : Elt F .f32 :=
  if h : n < cfg0.N then (outsAt0 m c n h).2 (ix2 (0 : Fin 1) (0 : Fin 1)) else k0_pay1 (F := F) (ix2 (0 : Fin 1) (0 : Fin 1))

theorem totalAt_eq (c : Dev nD) (n : ℕ) (h : n < cfg0.N) :
    totalAt m c n = (outsAt0 m c n h).2 (ix2 (0 : Fin 1) (0 : Fin 1)) := dif_pos h

/-- The output array after the kernel: the rows of tile `q` hold the total after point `128 q + 127`. -/
def tiles (c : Dev nD) : S16x128.Idx → Elt F .f32 := fun i => totalAt m c (128 * ((i 0).val / 8) + 127)

/-- The output's block at point `t` is tile `t / 128`. -/
theorem idx_out : ∀ t : Fin cfg0.N, win0_2.index t (0 : Fin 2) = t.val / 128 ∧ win0_2.index t (1 : Fin 2) = 0 :=
  (by decide +kernel : ∀ t : Fin grid0.N, win0_2.index t (0 : Fin 2) = t.val / 128 ∧ win0_2.index t (1 : Fin 2) = 0)

/-- What a writing point writes back is its tile of that array. -/
theorem flushed_eq (c : Dev nD) (t : Fin cfg0.N) (hf : (cfg0.win 2).flush t = true) :
    (dats m 0 c).flushed 2 t = ((cfg0.win 2).blk t).view.read (Elt F) (tiles m c) := by
  have h1 : t.val % 128 = 127 := (flush0_2 t).mp hf
  obtain ⟨e0, e1⟩ := idx_out t
  show (cfg0.win 2).cut (grid0.coords t) ((dats m 0 c).after 2 t) = _
  rw [after0_2]
  funext j
  show (outsAt0 m c t.val t.isLt).1 j = tiles m c (((cfg0.win 2).blk t).view.emb j)
  refine (tile_at m c t h1 j).trans ?_
  have hrow : (((cfg0.win 2).blk t).view.emb j 0).val = win0_2.index t (0 : Fin 2) * 8 + 1 * (j 0).val := rfl
  have hj : (j 0).val < 8 := (j 0).isLt
  have hn : 128 * ((((cfg0.win 2).blk t).view.emb j 0).val / 8) + 127 = t.val := by rw [hrow, e0]; omega
  show _ = totalAt m c (128 * ((((cfg0.win 2).blk t).view.emb j 0).val / 8) + 127)
  rw [hn, totalAt_eq m c t.val t.isLt]

/-- An index of the output array is in point `t`'s block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

/-- Every entry of the output array is in the block of the last point of its half. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 256 := N_0
  have hlt : 128 * ((i 0).val / 8) + 127 < cfg0.N := by omega
  refine ⟨⟨128 * ((i 0).val / 8) + 127, hlt⟩, (flush0_2 _).mpr (by show (128 * ((i 0).val / 8) + 127) % 128 = 127; omega), ?_⟩
  rw [mem_blk]
  obtain ⟨e0, e1⟩ := idx_out ⟨128 * ((i 0).val / 8) + 127, hlt⟩
  have e0' : win0_2.index ⟨128 * ((i 0).val / 8) + 127, hlt⟩ (0 : Fin 2) = (128 * ((i 0).val / 8) + 127) / 128 := e0
  intro a
  match a with
  | ⟨0, _⟩ =>
    show win0_2.index ⟨128 * ((i 0).val / 8) + 127, hlt⟩ (0 : Fin 2) * 8 ≤ (i 0).val
      ∧ (i 0).val < win0_2.index ⟨128 * ((i 0).val / 8) + 127, hlt⟩ (0 : Fin 2) * 8 + 8
    rw [e0']; omega
  | ⟨1, _⟩ =>
    show win0_2.index ⟨128 * ((i 0).val / 8) + 127, hlt⟩ (1 : Fin 2) * 128 ≤ (i 1).val
      ∧ (i 1).val < win0_2.index ⟨128 * ((i 0).val / 8) + 127, hlt⟩ (1 : Fin 2) * 128 + 128
    rw [e1]; omega

/-- So the output array ends holding the two tiles. -/
theorem final (c : Dev nD) : (dats m 0 c).arrAt 2 cfg0.N = tiles m c :=
  (dats m 0 c).arrAt_eq_of_cover 2 (tiles m c) (flushed_eq m c) cover

/-- The one entry sliced out at row `8 q` of the output array, as a scalar: the total after point `128 q + 127`. -/
theorem pick (c : Dev nD) (q : ℕ) (h : S16x128.Slices ![8 * q, 0] S1x1) (h' : S1x1.ShapeCasts S_) (k : S_.Idx) :
    shapeCast S_ (extractStridedSlice S1x1 ![8 * q, 0] (tiles m c) h) h' k = totalAt m c (128 * q + 127) := by
  unfold shapeCast extractStridedSlice tiles
  refine congrArg (totalAt m c) ?_
  have key : ∀ y : S1x1.Idx, 128 * ((8 * q + (y (0 : Fin 2)).val) / 8) + 127 = 128 * q + 127 := fun y => by
    have : (y (0 : Fin 2)).val < 1 := (y 0).isLt
    omega
  exact key ((Shape.reshapeEquiv h') k)

/-- The lines after the kernel: entries (0, 0) and (8, 0) of the output array, added. -/
theorem tail_value (c : Dev nD) :
    Pipeline.afterTail₀ cfgs (dats m) 0 (V0 m) [hostOps1] c main_v6
      = fun _ => FloatOps.addf (totalAt m c 127) (totalAt m c 255) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v1)
      = tiles m c from (Pipeline.withArrays_arr spec0 launch0.win.arr_inj c _ _ 2).trans (final m c)]
  funext k
  show FloatOps.addf (shapeCast S_ (extractStridedSlice S1x1 ![0, 0] (tiles m c) Facts₀.slices_S16x128_S1x1_0_0) Facts₀.shapeCasts_S1x1_S_ k)
      (shapeCast S_ (extractStridedSlice S1x1 ![8, 0] (tiles m c) Facts₀.slices_S16x128_S1x1_8_0) Facts₀.shapeCasts_S1x1_S_ k) = _
  rw [show totalAt m c 127 = totalAt m c (128 * 0 + 127) from rfl, show totalAt m c 255 = totalAt m c (128 * 1 + 127) from rfl,
    ← pick m c 0 Facts₀.slices_S16x128_S1x1_0_0 Facts₀.shapeCasts_S1x1_S_ k, ← pick m c 1 Facts₀.slices_S16x128_S1x1_8_0 Facts₀.shapeCasts_S1x1_S_ k]

/-- The kernel's run, read: the result buffer at the two halves' totals added, the arguments unchanged. -/
theorem run : θ_run defs (onTc (τ := τ) (main (F := F))) ⟨m, fun _ => 0, ρ⟩ fun r => ∀ c : Dev nD,
      r.2.mem ((c.tc : Thread nD τ).loc main_v6) = (fun _ => FloatOps.addf (totalAt m c 127) (totalAt m c 255))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

/-! ## At the ideal values: each half's total is the sum of its blocks' losses -/

namespace Cert.KernelIdeal.Result

open Idealize.ShloMosaic Idealize.ShloMosaic.TcCoe Idealize.SL.Sem Idealize.ShloMosaic.ValueIdx
open Cert.KernelIdeal Cert.KernelIdeal.Gen Cert.KernelIdeal.Acc Cert.KernelIdeal.Block

variable (m : (ℓ : Loc nD τ sig) → Buf (Elt Ideal) ℓ)

theorem total_first_half (c : Dev nD) :
    totalAt m c 127 = (0 : EReal) + ∑ s ∈ Finset.range 128, blockLoss m c (0 + s) := by
  have hN : cfg0.N = 256 := N_0
  have h : 127 < cfg0.N := by omega
  rw [totalAt_eq m c 127 h, total_fold m c 127 h (by omega)]
  exact fold_sum m c 0 127 (le_refl _) (by omega) _

theorem total_second_half (c : Dev nD) :
    totalAt m c 255 = (0 : EReal) + ∑ s ∈ Finset.range 128, blockLoss m c (128 + s) := by
  have hN : cfg0.N = 256 := N_0
  have h : 255 < cfg0.N := by omega
  rw [totalAt_eq m c 255 h, total_fold m c 255 h (by omega)]
  exact fold_sum m c 1 127 (le_refl _) (by omega) _

end Cert.KernelIdeal.Result

end
-- ==== Proof.KernelInputs.lean ====
/-
  The blocks the kernel reads, as parts of the argument arrays.

  Point `t` of the grid reads block `t` of the scores, rows `1024 t .. 1024 t + 1023`, and the same rows of the labels
  (the labels reach the kernel as a 262144 x 1 column, a reshape of the label vector).
-/
import proofs.«430004_j69518340653473_2_alg».proof.Proof.KernelAcc
import Idealize.ShloMosaic.Lib.StableHlo.Run
import Idealize.ShloMosaic.Lib.Tactic

noncomputable section

namespace Cert.KernelIdeal.Inputs

open Idealize.ShloMosaic Idealize.ShloMosaic.TcCoe Idealize.SL.Sem Idealize.ShloMosaic.ValueIdx
open Cert.KernelIdeal Cert.KernelIdeal.Gen Cert.KernelIdeal.Acc

variable {F : FTy → Type} [FloatOps F]
variable (m : (ℓ : Loc nD τ sig) → Buf (Elt F) ℓ)

/-- Both input windows sit at block row `t`, block column 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `r` of block `t`, as a row of the whole array. -/
def row (t : Fin cfg0.N) (r : Fin 1024) : Fin 262144 :=
  ⟨t.val * 1024 + r.val, by have := t.isLt; have hN : cfg0.N = 256 := N_0; have := r.isLt; omega⟩

/-- The scores of block `t` are those rows of the score array. -/
theorem scores_at (c : Dev nD) (t : Fin cfg0.N) (r : Fin 1024) (i : Fin 512) :
    xblk m c t (ix2 r i) = m ((c.tc : Thread nD τ).loc main_arg0) (ix2 (row t r) i) := by
  obtain ⟨e0, e1, -, -⟩ := idx_in t
  show iblk m c 0 t (ix2 r i) = _
  unfold iblk
  rw [View.read_apply]
  refine (congrFun (V_main_arg0 m c) _).trans ?_
  congr 1
  funext a; apply Fin.ext
  match a with
  | ⟨0, _⟩ => show win0_0.index t (0 : Fin 2) * 1024 + 1 * r.val = t.val * 1024 + r.val; rw [e0]; omega
  | ⟨1, _⟩ => show win0_0.index t (1 : Fin 2) * 512 + 1 * i.val = i.val; rw [e1]; omega

/-- The label column the kernel is handed is the label vector, reshaped. -/
theorem label_column (c : Dev nD) :
    V m c main_v0 = shapeCast S262144x1 (m ((c.tc : Thread nD τ).loc main_arg1)) Facts₀.shapeCasts_S262144_S262144x1 := by
  show StableHlo.after hostOps0 (fun b => m (c, b)) (Proc.devRef .tc main_v0) = _
  after_results
  rfl

/-- The labels of block `t` are those rows of the label vector. -/
theorem labels_at (c : Dev nD) (t : Fin cfg0.N) (r : Fin 1024) :
    tblk m c t (ix2 r (0 : Fin 1)) = m ((c.tc : Thread nD τ).loc main_arg1) (ix1 (row t r)) := by
  obtain ⟨-, -, e0, e1⟩ := idx_in t
  show iblk m c 1 t (ix2 r (0 : Fin 1)) = _
  unfold iblk
  rw [View.read_apply]
  refine (congrFun (label_column m c) _).trans ?_
  refine shapeCast_apply _ _ _ _ ?_
  show (S262144.rowMajor (ix1 (row t r))).val
    = (S262144x1.rowMajor (((cfg0.win 1).blk t).view.emb (ix2 r (0 : Fin 1)))).val
  rw [Shape.rowMajor_val_two, Shape.rowMajor_val_one]
  show t.val * 1024 + r.val = (win0_1.index t (0 : Fin 2) * 1024 + 1 * r.val) * 1 + (win0_1.index t (1 : Fin 2) * 1 + 1 * 0)
  rw [e0, e1]; omega

end Cert.KernelIdeal.Inputs

end
-- ==== Proof.RefValue.lean ====
/-
  What the reference computes, read as a number: zero plus the sum over all rows of the row's loss.

  The reference fetches each row's label score by a gather along the classes (the label, taken as a signed word, wrapped
  if negative, and clamped into the row), guarded by a range test that selects a junk value for a label out of range;
  subtracts it from the row, takes positive parts, multiplies by the indicator of `i < t` and sums everything.  For a
  label below 512 the wrap and the clamp do nothing and the guard passes, so the fetched score is the label's own and
  each row's sum is the indicator spelling of its loss.
-/
import proofs.«430004_j69518340653473_2_alg».proof.Proof.RefRead
import proofs.«430004_j69518340653473_2_alg».proof.Proof.Spec
import Idealize.ShloMosaic.Lib.ValueIdx
import Idealize.ShloMosaic.PureOps.Reduce

noncomputable section

namespace Cert.ReferenceIdeal.RefValue

open Idealize.ShloMosaic Idealize.ShloMosaic.ValueIdx
open Cert.ReferenceIdeal Cert.ReferenceIdeal.Gen Cert.ReferenceIdeal.ReadP Cert.OrdinalSpec

/-! ## The two stages that are not pointwise -/

section Stages
variable {α : Type}

/-- On the row axis the gather reads the result's own row: that axis is a batching axis. -/
theorem gather_axis_row (idx : IVec S262144x1x1 32) (n : Fin 262144) :
    gather_S262144x512_S262144x1x1_S262144x1_n_1_0_0_1_2_11.start (ix2 n (0 : Fin 1)) idx (0 : Fin 2)
      + gather_S262144x512_S262144x1x1_S262144x1_n_1_0_0_1_2_11.batchCoord (ix2 n (0 : Fin 1)) (0 : Fin 2)
      + gather_S262144x512_S262144x1x1_S262144x1_n_1_0_0_1_2_11.offCoord (ix2 n (0 : Fin 1)) (0 : Fin 2) = n.val := by
  have hb : (0 : Fin 2) ∈ gather_S262144x512_S262144x1x1_S262144x1_n_1_0_0_1_2_11.operandBatchingDims := List.mem_singleton.mpr rfl
  rw [GatherDims.start_batching _ _ _ _ hb,
    GatherDims.offCoord_eq_zero _ _ _ (fun h => ((GatherDims.mem_sKept _ _).mp h).2 hb)]
  unfold GatherDims.batchCoord
  rw [dif_pos hb]
  simp only [Nat.zero_add, Nat.add_zero]
  rfl

/-- On the class axis it reads the start index, taken signed and clamped into the row. -/
theorem gather_axis_class (idx : IVec S262144x1x1 32) (n : Fin 262144) :
    gather_S262144x512_S262144x1x1_S262144x1_n_1_0_0_1_2_11.start (ix2 n (0 : Fin 1)) idx (1 : Fin 2)
      + gather_S262144x512_S262144x1x1_S262144x1_n_1_0_0_1_2_11.batchCoord (ix2 n (0 : Fin 1)) (1 : Fin 2)
      + gather_S262144x512_S262144x1x1_S262144x1_n_1_0_0_1_2_11.offCoord (ix2 n (0 : Fin 1)) (1 : Fin 2)
      = min (idx (ix3 n (0 : Fin 1) (0 : Fin 1))).toInt.toNat 511 := by
  have hs : (1 : Fin 2) ∈ gather_S262144x512_S262144x1x1_S262144x1_n_1_0_0_1_2_11.startIndexMap := List.mem_singleton.mpr rfl
  have hc : (1 : Fin 2) ∈ gather_S262144x512_S262144x1x1_S262144x1_n_1_0_0_1_2_11.collapsedSliceDims := List.mem_singleton.mpr rfl
  have hnb : (1 : Fin 2) ∉ gather_S262144x512_S262144x1x1_S262144x1_n_1_0_0_1_2_11.operandBatchingDims := fun h =>
    absurd (List.mem_singleton.mp h) (by decide)
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos hs]
  have hsi : gather_S262144x512_S262144x1x1_S262144x1_n_1_0_0_1_2_11.siIdx (ix2 n (0 : Fin 1))
      ⟨List.idxOf (1 : Fin 2) gather_S262144x512_S262144x1x1_S262144x1_n_1_0_0_1_2_11.startIndexMap, List.idxOf_lt_length_iff.2 hs⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- The gather along the classes reads, at row `n`, the row's entry at the start index taken signed and clamped into
    the row. -/
theorem gather_row (x : S262144x512.Idx → α) (idx : IVec S262144x1x1 32) (n : Fin 262144) :
    Host.gather gather_S262144x512_S262144x1x1_S262144x1_n_1_0_0_1_2_11 x idx (ix2 n (0 : Fin 1))
      = x (ix2 n ⟨min (idx (ix3 n (0 : Fin 1) (0 : Fin 1))).toInt.toNat 511, by omega⟩) := by
  unfold Host.gather
  congr 1
  funext a
  refine Fin.ext ?_
  match a with
  | ⟨0, _⟩ => exact gather_axis_row idx n
  | ⟨1, _⟩ => exact gather_axis_class idx n

/-- A fold over a one-element index set combines its one entry with the initial value. -/
theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl, Finset.fold_singleton]

/-- A conjunction over a unit axis is the one entry under it (and the initial value). -/
theorem all_unit (x : IVec S262144x1x1 1) (init : IVec S_ 1) (n : Fin 262144) :
    Host.reduce IntOp.andi x init Facts₀.reducesTo_S262144x1x1_S262144x1_d2 Facts₀.h_S_ (ix2 n (0 : Fin 1))
      = IntOp.andi (x (ix3 n (0 : Fin 1) (0 : Fin 1))) (init ix0) := by
  have hR : S262144x1x1.Reduces [2] S262144x1 := by decide
  rw [Host.reduce_eq_fold_single IntOp.andi x init Facts₀.reducesTo_S262144x1x1_S262144x1_d2 hR Facts₀.h_S_]
  refine (fold_fin_one IntOp.andi (init (Shape.Idx.first Facts₀.h_S_)) (x ∘ hR.lift (ix2 n (0 : Fin 1)))).trans ?_
  congr 1
  · show x _ = x _
    congr 1
    funext b; apply Fin.ext
    match b with
    | ⟨0, _⟩ => rfl
    | ⟨1, _⟩ => rfl
    | ⟨2, _⟩ => rfl
  · exact congrArg init (eq_ix0 _)

end Stages

/-! ## The reference's result -/

section Result

variable (x0 : (⟨S262144x512, .f32⟩ : BufTy).Contents (Elt Ideal)) (x1 : (⟨S262144, .i32⟩ : BufTy).Contents (Elt Ideal))
variable (hl : ∀ n : S262144.Idx, (x1 n).toNat < 512)
include hl

/-- A label in range is neither wrapped nor clamped: the gather's start index for row `n` is the row's label. -/
theorem start_index (n : Fin 262144) :
    val_main_call0_v5 (F := Ideal) x1 (ix3 n (0 : Fin 1) (0 : Fin 1)) = x1 (ix1 n) := by
  have e5 : idx_main_call0_v5 (ix3 n (0 : Fin 1) (0 : Fin 1)) = ix2 n (0 : Fin 1) := by
    funext a; apply Fin.ext
    match a with
    | ⟨0, _⟩ => show ((n.val * 1 + 0) * 1 + 0) / 1 = n.val; omega
    | ⟨1, _⟩ => rfl
  have e0 : idx_main_v0 (ix2 n (0 : Fin 1)) = ix1 n := by
    funext a; match a with | ⟨0, _⟩ => rfl
  rw [val_main_call0_v5_apply, e5, val_main_call0_v4_apply, val_main_call0_v1_apply, val_main_v0_apply, e0,
    val_main_call0_v0_apply, val_main_call0_c_apply, small_not_neg _ (hl _), select_zero]

/-- The range test passes at every row. -/
theorem in_range (n : Fin 262144) : val_main_call0_v12 (F := Ideal) x1 (ix2 n (0 : Fin 1)) = 1#1 := by
  unfold val_main_call0_v12
  rw [all_unit, val_main_call0_v11_apply, val_main_call0_v7_apply, val_main_call0_v10_apply, start_index x1 hl n,
    val_main_call0_v6_apply, val_main_call0_c_2_apply, val_main_call0_v9_apply, val_main_call0_v8_apply,
    val_main_call0_c_1_apply, small_sge_zero _ (hl _), small_sle_last _ (hl _)]
  rfl

/-- The score the reference fetches for row `n` is the row's entry at its label. -/
theorem fetched (n : Fin 262144) :
    val_main_v1 (F := Ideal) x0 x1 (ix2 n (0 : Fin 1)) = x0 (ix2 n ⟨(x1 (ix1 n)).toNat, hl _⟩) := by
  rw [val_main_v1_apply, in_range x1 hl n, select_one]
  unfold val_main_call0_v13
  rw [gather_row]
  congr 1
  congr 1
  apply Fin.ext
  show min (val_main_call0_v5 (F := Ideal) x1 (ix3 n (0 : Fin 1) (0 : Fin 1))).toInt.toNat 511 = (x1 (ix1 n)).toNat
  rw [start_index x1 hl n, small_toInt_toNat _ (hl _)]
  have := hl (ix1 n)
  omega

/-- One term of the reference's sum: the positive part of the margin over the fetched score, times the indicator. -/
theorem ref_term (n : Fin 262144) (i : Fin 512) :
    val_main_v13 (F := Ideal) x0 x1 (ix2 n i)
      = max (x0 (ix2 n i) - x0 (ix2 n ⟨(x1 (ix1 n)).toNat, hl _⟩)) 0
          * (((IntOp.cmpi .slt (BitVec.ofNat 32 i.val) (x1 (ix1 n))).toNat : ℝ) : EReal) := by
  have e2 : idx_main_v2 (ix2 n i) = ix2 n (0 : Fin 1) := by
    funext a; match a with | ⟨0, _⟩ => rfl | ⟨1, _⟩ => rfl
  have e10 : idx_main_v8 (idx_main_v10 (ix2 n i)) = ix1 n := by
    funext a; match a with | ⟨0, _⟩ => rfl
  have e9 : (idx_main_v7 (idx_main_v9 (ix2 n i)) 0).val = i.val := rfl
  rw [val_main_v13_apply, val_main_v5_apply, val_main_v3_apply, val_main_v2_apply, e2, fetched x0 x1 hl n,
    val_main_v4_apply, val_main_cst_apply, val_main_v12_apply, val_main_v11_apply, val_main_v9_apply, val_main_v7_apply,
    val_main_v6_apply, e9, val_main_v10_apply, val_main_v8_apply, e10]
  show max (x0 (ix2 n i) - _) (Ideal.ofBits .f32 0x00000000#32) * _ = _
  rw [Ideal.ofBits_zero_f32]
  rfl

/-- The reference's result: zero plus the sum over all rows of the row's loss. -/
theorem ref_value :
    val_main_v14 (F := Ideal) x0 x1 ix0
      = 0 + ∑ n : Fin 262144, rowLoss (fun i => x0 (ix2 n i)) ⟨(x1 (ix1 n)).toNat, hl _⟩ := by
  refine (val_main_v14_apply x0 x1 ix0).trans ?_
  refine congrArg₂ (· + ·) Ideal.ofBits_zero_f32 ?_
  refine (sum_idx2 (n0 := 262144) (n1 := 512) (val_main_v13 (F := Ideal) x0 x1)).trans ?_
  refine Finset.sum_congr rfl fun n _ => ?_
  rw [← rowIndicator_eq (fun i => x0 (ix2 n i)) (x1 (ix1 n)) (hl _)]
  unfold rowIndicator
  exact Finset.sum_congr rfl fun i _ => ref_term x0 x1 hl n i

end Result

end Cert.ReferenceIdeal.RefValue

end
-- ==== Proof.Labels.lean ====
/-
  What the precondition says of the labels: every label, read as a number, is below 512.

  The precondition's second conjunct is `all (0 <= t and t < 512)` over the labels as signed 32-bit words; a word that is
  at least zero and below 512 as a signed number is the number it holds, which is below 512.
-/
import proofs.«430004_j69518340653473_2_alg».proof.Pre_finite_inputs
import Idealize.ShloMosaic.Lib.ReduceAll
import Idealize.ShloMosaic.Lib.ValueIdx
import Idealize.ShloMosaic.Lib.StableHlo.Predicate

noncomputable section

namespace Cert.Pre_finite_inputs.Labels

open Idealize.ShloMosaic Cert.Pre_finite_inputs

variable [Facts] {F : FTy → Type} [FloatOps F]

/-- A signed word between zero and 511 holds a number below 512. -/
theorem toNat_lt_of_signed (w : BitVec 32) (hge : IntOp.cmpi .sge w 0#32 = 1#1) (hlt : IntOp.cmpi .slt w 512#32 = 1#1) :
    w.toNat < 512 := by
  unfold IntOp.cmpi at hge hlt
  rw [StableHlo.Predicate.ofBool_eq_one_iff] at hge hlt
  simp only [BitVec.sle, BitVec.slt, decide_eq_true_eq, BitVec.toInt_eq_toNat_cond, BitVec.toNat_ofNat] at hge hlt
  have h2 : (2 : ℕ) ^ 32 = 4294967296 := by norm_num
  simp only [h2] at hge hlt
  split at hge <;> split at hlt <;> omega

/-- Under the precondition every label is below 512. -/
theorem label_lt (x0 : FVec F S262144x512 .f32) (x1 : IVec S262144 32) (h : fn (F := F) x0 x1 = fun _ => 1#1)
    (n : S262144.Idx) : (x1 n).toNat < 512 := by
  have h0 := congrFun h ValueIdx.ix0
  dsimp only [fn] at h0
  have h1 := (IntOp.andi_eq_one.mp h0).2
  haveI : Subsingleton S_.Idx := ⟨fun a b => funext fun d => d.elim0⟩
  have h2 := Host.reduce_andi_all _ _ _ _ _ h1 n
  obtain ⟨hge, hlt⟩ := IntOp.andi_eq_one.mp h2
  exact toNat_lt_of_signed (x1 n) hge hlt

end Cert.Pre_finite_inputs.Labels

end
-- ==== Proof.Bridge.lean ====
/-
  The two programs compute one number.

  The kernel's result is the first half's running total plus the second half's: zero plus the losses of blocks 0..127,
  plus zero plus the losses of blocks 128..255.  The reference's is zero plus the sum over all 262144 rows of the row's
  loss.  Rows are blocks of 1024 in order, a block's loss is the sum of its rows' losses (the masked spelling of a row's
  loss is the loss, for a label in range), and sums of extended reals may be regrouped: the two numbers are equal.  The
  precondition is used once, for the labels' range.
-/
import proofs.«430004_j69518340653473_2_alg».proof.Defs
import proofs.«430004_j69518340653473_2_alg».proof.Proof.KernelValue
import proofs.«430004_j69518340653473_2_alg».proof.Proof.KernelInputs
import proofs.«430004_j69518340653473_2_alg».proof.Proof.RefValue
import proofs.«430004_j69518340653473_2_alg».proof.Proof.Labels
import proofs.«430004_j69518340653473_2_alg».proof.Proof.Gen.Pre_finite_inputs

noncomputable section

namespace Cert.Proof.Bridge

open Idealize.ShloMosaic Idealize.ShloMosaic.TcCoe Idealize.SL.Sem Idealize.ShloMosaic.ValueIdx
open Cert.OrdinalSpec
open Cert.KernelIdeal Cert.KernelIdeal.Gen Cert.KernelIdeal.Acc Cert.KernelIdeal.Result Cert.KernelIdeal.Inputs

variable (m : (ℓ : Loc nD τ sig) → Buf (Elt Ideal) ℓ)

/-- The kernel's result is zero plus the sum over all rows of the row's loss, when every label is in range. -/
theorem kernel_value (c : Dev nD)
    (hl : ∀ n : S262144.Idx, (m ((c.tc : Thread nD τ).loc main_arg1) n).toNat < 512) :
    FloatOps.addf (totalAt m c 127) (totalAt m c 255)
      = (0 : EReal) + ∑ n : Fin 262144, rowLoss (fun i => m ((c.tc : Thread nD τ).loc main_arg0) (ix2 n i))
          ⟨(m ((c.tc : Thread nD τ).loc main_arg1) (ix1 n)).toNat, hl _⟩ := by
  rw [Ideal.addf_def, total_first_half, total_second_half, zero_add, zero_add, zero_add, sum_rows,
    ← sum_blocks (blockLoss m c)]
  refine Finset.sum_congr rfl fun b _ => ?_
  have hN : cfg0.N = 256 := N_0
  have hb : b.val < cfg0.N := by have := b.isLt; omega
  unfold blockLoss
  rw [dif_pos hb]
  refine Finset.sum_congr rfl fun r _ => ?_
  have hx : (fun i => xblk m c ⟨b.val, hb⟩ (ix2 r i))
      = fun i => m ((c.tc : Thread nD τ).loc main_arg0) (ix2 (rowOf b r) i) :=
    funext fun i => scores_at m c ⟨b.val, hb⟩ r i
  have ht : tblk m c ⟨b.val, hb⟩ (ix2 r (0 : Fin 1)) = m ((c.tc : Thread nD τ).loc main_arg1) (ix1 (rowOf b r)) :=
    labels_at m c ⟨b.val, hb⟩ r
  rw [hx, ht, rowMasked_eq _ _ (hl _)]

end Cert.Proof.Bridge

namespace Cert.Proof.Bridge

open Idealize.ShloMosaic Idealize.ShloMosaic.TcCoe Idealize.SL.Sem Idealize.ShloMosaic.ValueIdx

/-- The algebraic claim: both runs end, with the kernel's result buffer and the reference's at the same number. -/
theorem algebraic : Cert.algebraic_KernelIdeal_ReferenceIdeal := by
  intro m ρ m' ρ' hpre hagree
  refine ⟨fun c => fun _ => FloatOps.addf (Cert.KernelIdeal.Result.totalAt m c 127) (Cert.KernelIdeal.Result.totalAt m c 255),
    Cert.KernelIdeal.Result.run (F := Ideal) m ρ, ?_⟩
  refine (θ_run Cert.ReferenceIdeal.defs _ _).mono (fun _ h c => ⟨(h c).1.trans ?_, (h c).2⟩)
    (Cert.ReferenceIdeal.ValueP.run (F := Ideal) m' ρ')
  have hl : ∀ n : Cert.KernelIdeal.S262144.Idx,
      (m ((c.tc : Thread Cert.KernelIdeal.nD Cert.KernelIdeal.τ).loc Cert.KernelIdeal.main_arg1) n).toNat < 512 :=
    fun n => Cert.Pre_finite_inputs.Labels.label_lt _ _ (hpre c) n
  rw [Cert.ReferenceIdeal.ReadP.val_main_v14_eq, (hagree c).1, (hagree c).2]
  funext k
  rw [eq_ix0 k]
  exact (Cert.ReferenceIdeal.RefValue.ref_value _ _ hl).trans (kernel_value m c hl).symm

end Cert.Proof.Bridge

end
-- ==== Proof.lean ====
/-
  The certificate: the five claims assembled.

  The kernel (as printed and as idealized) runs and leaves its arguments alone: the generated frames.  The reference runs
  and leaves its arguments alone: its generated run, the result dropped.  The idealization rewrote nothing.  And at the
  ideal values the kernel and the reference, from memories that agree on the scores and the labels, both end with the
  same number in their result buffers, when every score is finite and every label is a class number: the ordinal loss
  summed over all rows, which the kernel accumulates block by block in two halves and the reference sums at once.
-/
import proofs.«430004_j69518340653473_2_alg».proof.Defs
import proofs.«430004_j69518340653473_2_alg».proof.Proof.Gen.Kernel
import proofs.«430004_j69518340653473_2_alg».proof.Proof.Gen.Kernel.Skeleton
import proofs.«430004_j69518340653473_2_alg».proof.Proof.Gen.Kernel.Launch
import proofs.«430004_j69518340653473_2_alg».proof.Proof.Gen.Kernel.Points
import proofs.«430004_j69518340653473_2_alg».proof.Proof.Gen.Kernel.Frame
import proofs.«430004_j69518340653473_2_alg».proof.Proof.Gen.KernelIdeal
import proofs.«430004_j69518340653473_2_alg».proof.Proof.Gen.KernelIdeal.Skeleton
import proofs.«430004_j69518340653473_2_alg».proof.Proof.Gen.KernelIdeal.Launch
import proofs.«430004_j69518340653473_2_alg».proof.Proof.Gen.KernelIdeal.Points
import proofs.«430004_j69518340653473_2_alg».proof.Proof.Gen.KernelIdeal.Frame
import proofs.«430004_j69518340653473_2_alg».proof.Proof.Gen.ReferenceIdeal
import proofs.«430004_j69518340653473_2_alg».proof.Proof.RefRun
import proofs.«430004_j69518340653473_2_alg».proof.Proof.RefRead
import proofs.«430004_j69518340653473_2_alg».proof.Proof.Gen.Pre_finite_inputs
import proofs.«430004_j69518340653473_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  Cert.Proof.Bridge.algebraic⟩

end Cert.Proof

end
